-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x3 : Shape := ⟨3, ![8, 1024, 3]⟩
abbrev S8x16384x3 : Shape := ⟨3, ![8, 16384, 3]⟩
abbrev S_ : Shape := ⟨0, ![]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  bcast_S_S8x16384x3 : S_.BroadcastsInDim S8x16384x3 (![] : Fin 0 → Fin S8x16384x3.rank)
  reducesTo_S8x16384x3_S_d0_1_2 : S8x16384x3.ReducesTo [0, 1, 2] S_

variable [Facts]

def fn_part1 {F : FTy → Type} [FloatOps F] (main_v13 : IVec S_ 1) (main_v16 : IVec S8x16384x3 1) : IVec S_ 1 :=
  let main_c_5 : IVec S_ 1 := constantI S_ 1 1#1
  let main_v17 : IVec S_ 1 := (fun x v => Host.reduce IntOp.andi x v reducesTo_S8x16384x3_S_d0_1_2 h_S_) main_v16 main_c_5
  let main_v18 : IVec S_ 1 := andi main_v13 main_v17
  main_v18

def fn {F : FTy → Type} [FloatOps F] (main_arg0 : FVec F S8x1024x3 .f32) (main_arg1 : FVec F S8x16384x3 .f32) (main_arg2 : FVec F S8x1024x3 .f32) (main_arg3 : FVec F S8x16384x3 .f32) : IVec S_ 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S8x16384x3 .f32 := Host.absf main_arg1
  let main_cst_0 : FVec F S_ .f32 := constant S_ .f32 0x7F800000#32
  let main_v5 : FVec F S8x16384x3 .f32 := broadcastInDim S8x16384x3 ![] bcast_S_S8x16384x3 main_cst_0
  let main_v6 : IVec S8x16384x3 1 := cmpf .olt main_v4 main_v5
  let main_c_1 : IVec S_ 1 := constantI S_ 1 1#1
  let main_v7 : IVec S_ 1 := (fun x v => Host.reduce IntOp.andi x v reducesTo_S8x16384x3_S_d0_1_2 h_S_) main_v6 main_c_1
  let main_v8 : IVec S_ 1 := andi main_v3 main_v7
  let main_v9 : FVec F S8x1024x3 .f32 := Host.absf main_arg2
  let main_cst_2 : FVec F S_ .f32 := constant S_ .f32 0x7F800000#32
  let main_v10 : FVec F S8x1024x3 .f32 := broadcastInDim S8x1024x3 ![] bcast_S_S8x1024x3 main_cst_2
  let main_v11 : IVec S8x1024x3 1 := cmpf .olt main_v9 main_v10
  let main_c_3 : IVec S_ 1 := constantI S_ 1 1#1
  let main_v12 : IVec S_ 1 := (fun x v => Host.reduce IntOp.andi x v reducesTo_S8x1024x3_S_d0_1_2 h_S_) main_v11 main_c_3
  let main_v13 : IVec S_ 1 := andi main_v8 main_v12
  let main_v14 : FVec F S8x16384x3 .f32 := Host.absf main_arg3
  let main_cst_4 : FVec F S_ .f32 := constant S_ .f32 0x7F800000#32
  let main_v15 : FVec F S8x16384x3 .f32 := broadcastInDim S8x16384x3 ![] bcast_S_S8x16384x3 main_cst_4
  let main_v16 : IVec S8x16384x3 1 := cmpf .olt main_v14 main_v15
  fn_part1 (F := F) main_v13 main_v16
-- ==== Kernel.lean ====
abbrev S8x1024x3 : Shape := ⟨3, ![8, 1024, 3]⟩
abbrev S8x16384x3 : Shape := ⟨3, ![8, 16384, 3]⟩
abbrev S8x16384 : Shape := ⟨2, ![8, 16384]⟩
abbrev S8x256x3 : Shape := ⟨3, ![8, 256, 3]⟩
abbrev S8x256 : Shape := ⟨2, ![8, 256]⟩
abbrev S8x1024x256 : Shape := ⟨3, ![8, 1024, 256]⟩
abbrev S8x1024 : Shape := ⟨2, ![8, 1024]⟩
abbrev S8x1024x1 : Shape := ⟨3, ![8, 1024, 1]⟩
abbrev S8x1x256 : Shape := ⟨3, ![8, 1, 256]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S8x1024x3, .f32⟩
  | .hbm, ⟨1, _⟩ => ⟨S8x16384x3, .f32⟩
  | .hbm, ⟨2, _⟩ => ⟨S8x1024x3, .f32⟩
  | .hbm, ⟨3, _⟩ => ⟨S8x16384x3, .f32⟩
  | .hbm, ⟨4, _⟩ => ⟨S8x16384, .f32⟩
  | .hbm, ⟨5, _⟩ => ⟨S8x16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S8x1024x3, .f32⟩
  | .local _ .vmem, ⟨1, _⟩ => ⟨S8x256x3, .f32⟩
  | .local _ .vmem, ⟨2, _⟩ => ⟨S8x256x3, .f32⟩
  | .local _ .vmem, ⟨3, _⟩ => ⟨S8x256, .f32⟩
  | .local _ .vmem, ⟨4, _⟩ => ⟨S8x256, .f32⟩
  | .local _ .vmem, ⟨5, _⟩ => ⟨S8x1024x3, .f32⟩
  | .local _ .vmem, ⟨6, _⟩ => ⟨S8x256x3, .f32⟩
  | .local _ .vmem, ⟨7, _⟩ => ⟨S8x256x3, .f32⟩
  | .local _ .vmem, ⟨8, _⟩ => ⟨S8x256, .f32⟩
  | .local _ .vmem, ⟨9, _⟩ => ⟨S8x256, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x1024x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x1024x3_S8x1024x3_0_0_0 : ∀ a, (![0, 0, 0] : Fin 3 → Nat) a + S8x1024x3.size a ≤ S8x1024x3.size a
  h_S8x1024x3 : 0 < S8x1024x3.numel
  inb_S8x256x3_S8x256x3_0_0_0 : ∀ a, (![0, 0, 0] : Fin 3 → Nat) a + S8x256x3.size a ≤ S8x256x3.size a
  h_S8x256x3 : 0 < S8x256x3.numel
  bitsLt_bf16_f32 : FTy.bits .bf16 < FTy.bits .f32
  reduces_S8x1024x3_S8x1024 : S8x1024x3.Reduces [2] S8x1024
  shapeCasts_S8x1024_S8x1024x1 : S8x1024.ShapeCasts S8x1024x1
  reduces_S8x256x3_S8x256 : S8x256x3.Reduces [2] S8x256
  shapeCasts_S8x256_S8x1x256 : S8x256.ShapeCasts S8x1x256
  broadcasts_S8x1024x1_S8x1024x256 : S8x1024x1.Broadcasts S8x1024x256
  broadcasts_S8x1x256_S8x1024x256 : S8x1x256.Broadcasts S8x1024x256
  reduces_S8x1024x256_S8x256 : S8x1024x256.Reduces [1] S8x256
  inb_S8x256_S8x256_0_0 : ∀ a, (![0, 0] : Fin 2 → Nat) a + S8x256.size a ≤ S8x256.size a
  h_S8x256 : 0 < S8x256.numel
  reducesTo_S8x16384_S_d0_1 : S8x16384.ReducesTo [0, 1] S_
  h_S_ : 0 < S_.numel
  dot_S8x1024x3_S8x256x3_S8x1024x256_2_2_1_1_0_0_wf : DotDims.WF S8x1024x3 S8x256x3 S8x1024x256 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x1024x3.size a ≤ S8x1024x3.size a
  hwx0_0 : ∀ i : grid0.Coords, EltTy.bits .f32 = 32 ∨ (Rect.block (s := S8x1024x3) S8x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x16384x3.size a
  hwx0_1 : ∀ i : grid0.Coords, EltTy.bits .f32 = 32 ∨ (Rect.block (s := S8x16384x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x16384.size a
  hwx0_2 : ∀ i : grid0.Coords, EltTy.bits .f32 = 32 ∨ (Rect.block (s := S8x16384) S8x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x1024x3.size a ≤ S8x1024x3.size a
  hwx1_0 : ∀ i : grid1.Coords, EltTy.bits .f32 = 32 ∨ (Rect.block (s := S8x1024x3) S8x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x3.size a ≤ S8x16384x3.size a
  hwx1_1 : ∀ i : grid1.Coords, EltTy.bits .f32 = 32 ∨ (Rect.block (s := S8x16384x3) S8x256x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x16384.size a
  hwx1_2 : ∀ i : grid1.Coords, EltTy.bits .f32 = 32 ∨ (Rect.block (s := S8x16384) S8x256.size (cc1_transform_2 i) (hinb1_2 i)).WholeWords (EltTy.packing .f32)

variable [Facts₀]

def dot_S8x1024x3_S8x256x3_S8x1024x256_2_2_1_1_0_0 : DotDims S8x1024x3 S8x256x3 S8x1024x256 where
  lhsContracting := [2]
  rhsContracting := [2]
  lhsNonContracting := [1]
  rhsNonContracting := [1]
  lhsBatch := [0]
  rhsBatch := [0]
  wf := dot_S8x1024x3_S8x256x3_S8x1024x256_2_2_1_1_0_0_wf

abbrev win0_0 : Pipeline.Window sig grid0 :=
  Pipeline.Window.ofSpec (Memref.whole main_arg0) S8x1024x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S8x1024x3.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8x256x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x1024x3 : Shape := ⟨3, ![8, 1024, 3]⟩
abbrev S8x16384x3 : Shape := ⟨3, ![8, 16384, 3]⟩
abbrev S_ : Shape := ⟨0, ![]⟩
abbrev S8x1024 : Shape := ⟨2, ![8, 1024]⟩
abbrev S8x1024x1 : Shape := ⟨3, ![8, 1024, 1]⟩
abbrev S8x16384 : Shape := ⟨2, ![8, 16384]⟩
abbrev S8x1x16384 : Shape := ⟨3, ![8, 1, 16384]⟩
abbrev S8x1024x16384 : Shape := ⟨3, ![8, 1024, 16384]⟩

abbrev nBuf : Space → Nat
  | .hbm => 59
  | .vmem => 0
  | .smem => 0
  | _ => 0

abbrev bufTy : (tb : Table) → Fin (tcTables nBuf tb) → BufTy
  | .hbm, ⟨0, _⟩ => ⟨S8x1024x3, .f32⟩
  | .hbm, ⟨1, _⟩ => ⟨S8x16384x3, .f32⟩
  | .hbm, ⟨2, _⟩ => ⟨S8x1024x3, .f32⟩
  | .hbm, ⟨3, _⟩ => ⟨S8x16384x3, .f32⟩
  | .hbm, ⟨4, _⟩ => ⟨S8x1024x3, .f32⟩
  | .hbm, ⟨5, _⟩ => ⟨S_, .f32⟩
  | .hbm, ⟨6, _⟩ => ⟨S8x1024, .f32⟩
  | .hbm, ⟨7, _⟩ => ⟨S8x1024x1, .f32⟩
  | .hbm, ⟨8, _⟩ => ⟨S8x16384x3, .f32⟩
  | .hbm, ⟨9, _⟩ => ⟨S_, .f32⟩
  | .hbm, ⟨10, _⟩ => ⟨S8x16384, .f32⟩
  | .hbm, ⟨11, _⟩ => ⟨S8x1x16384, .f32⟩
  | .hbm, ⟨12, _⟩ => ⟨S8x1024x16384, .f32⟩
  | .hbm, ⟨13, _⟩ => ⟨S8x1024x16384, .f32⟩
  | .hbm, ⟨14, _⟩ => ⟨S8x1024x16384, .f32⟩
  | .hbm, ⟨15, _⟩ => ⟨S8x1024x16384, .f32⟩
  | .hbm, ⟨16, _⟩ => ⟨S_, .f32⟩
  | .hbm, ⟨17, _⟩ => ⟨S8x1024x16384, .f32⟩
  | .hbm, ⟨18, _⟩ => ⟨S8x1024x16384, .f32⟩
  | .hbm, ⟨19, _⟩ => ⟨S8x1024x16384, .f32⟩
  | .hbm, ⟨20, _⟩ => ⟨S_, .f32⟩
  | .hbm, ⟨21, _⟩ => ⟨S8x1024x16384, .f32⟩
  | .hbm, ⟨22, _⟩ => ⟨S8x1024x16384, .f32⟩
  | .hbm, ⟨23, _⟩ => ⟨S8x1024x16384, .f32⟩
  | .hbm, ⟨24, _⟩ => ⟨S_, .f32⟩
  | .hbm, ⟨25, _⟩ => ⟨S8x16384, .f32⟩
  | .hbm, ⟨26, _⟩ => ⟨S8x1024x3, .f32⟩
  | .hbm, ⟨27, _⟩ => ⟨S_, .f32⟩
  | .hbm, ⟨28, _⟩ => ⟨S8x1024, .f32⟩
  | .hbm, ⟨29, _⟩ => ⟨S8x1024x1, .f32⟩
  | .hbm, ⟨30, _⟩ => ⟨S8x16384x3, .f32⟩
  | .hbm, ⟨31, _⟩ => ⟨S_, .f32⟩
  | .hbm, ⟨32, _⟩ => ⟨S8x16384, .f32⟩
  | .hbm, ⟨33, _⟩ => ⟨S8x1x16384, .f32⟩
  | .hbm, ⟨34, _⟩ => ⟨S8x1024x16384, .f32⟩
  | .hbm, ⟨35, _⟩ => ⟨S8x1024x16384, .f32⟩
  | .hbm, ⟨36, _⟩ => ⟨S8x1024x16384, .f32⟩
  | .hbm, ⟨37, _⟩ => ⟨S8x1024x16384, .f32⟩
  | .hbm, ⟨38, _⟩ => ⟨S_, .f32⟩
  | .hbm, ⟨39, _⟩ => ⟨S8x1024x16384, .f32⟩
  | .hbm, ⟨40, _⟩ => ⟨S8x1024x16384, .f32⟩
  | .hbm, ⟨41, _⟩ => ⟨S8x1024x16384, .f32⟩
  | .hbm, ⟨42, _⟩ => ⟨S_, .f32⟩
  | .hbm, ⟨43, _⟩ => ⟨S8x1024x16384, .f32⟩
  | .hbm, ⟨44, _⟩ => ⟨S8x1024x16384, .f32⟩
  | .hbm, ⟨45, _⟩ => ⟨S8x1024x16384, .f32⟩
  | .hbm, ⟨46, _⟩ => ⟨S_, .f32⟩
  | .hbm, ⟨47, _⟩ => ⟨S8x16384, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  reducesTo_S8x1024x3_S8x1024_d2 : S8x1024x3.ReducesTo [2] S8x1024
  h_S_ : 0 < S_.numel
  bcast_S8x1024_S8x1024x1_0_1 : S8x1024.BroadcastsInDim S8x1024x1 (![0, 1] : Fin 2 → Fin S8x1024x1.rank)
  reducesTo_S8x16384x3_S8x16384_d2 : S8x16384x3.ReducesTo [2] S8x16384
  bcast_S8x16384_S8x1x16384_0_2 : S8x16384.BroadcastsInDim S8x1x16384 (![0, 2] : Fin 2 → Fin S8x1x16384.rank)
  bcast_S8x1024x1_S8x1024x16384_0_1_2 : S8x1024x1.BroadcastsInDim S8x1024x16384 (![0, 1, 2] : Fin 3 → Fin S8x1024x16384.rank)
  bcast_S8x1x16384_S8x1024x16384_0_1_2 : S8x1x16384.BroadcastsInDim S8x1024x16384 (![0, 1, 2] : Fin 3 → Fin S8x1024x16384.rank)
  bcast_S_S8x1024x16384 : S_.BroadcastsInDim S8x1024x16384 (![] : Fin 0 → Fin S8x1024x16384.rank)
  reducesTo_S8x1024x16384_S8x16384_d1 : S8x1024x16384.ReducesTo [1] S8x16384
  reducesTo_S8x16384_S_d0_1 : S8x16384.ReducesTo [0, 1] S_
  dot_S8x1024x3_S8x16384x3_S8x1024x16384_2_2_1_1_0_0_wf : DotDims.WF S8x1024x3 S8x16384x3 S8x1024x16384 [2] [2] [1] [1] [0] [0]

variable [Facts₀]

def dot_S8x1024x3_S8x16384x3_S8x1024x16384_2_2_1_1_0_0 : DotDims S8x1024x3 S8x16384x3 S8x1024x16384 where
  lhsContracting := [2]
  rhsContracting := [2]
  lhsNonContracting := [1]
  rhsNonContracting := [1]
  lhsBatch := [0]
  rhsBatch := [0]
  wf := dot_S8x1024x3_S8x16384x3_S8x1024x16384_2_2_1_1_0_0_wf

class Facts : Prop extends Facts₀ where

variable [Facts]
-- ==== Proof.NearestSpec.lean ====
/-
  The quantity both programs compute, over the extended reals.

  For a row `u` of a node set and a row `v` of a point set (three coordinates each) the distance is taken through the
  expansion of the squared norm, clamped at zero before the root:
      pairDist u v = sqrt (max ((Σ_k u_k²) + (Σ_k v_k²) − 2 · Σ_k u_k v_k) 0).
  `nearest X b v` is the least such distance from `v` to the 1024 node rows of batch `b`, the minimum started at +∞, and
  `minDist X Y` the array of those minima, one entry per batch and point. `meanPair p q` is the closing scalar: the mean of
  each of two such arrays (its sum over all 8 · 16384 entries divided by 131072), the two means added and halved.
  The literals stay as their words (2.0, 0.0, +∞, 131072.0): the same word stands on both sides and is never evaluated.
-/
import Idealize.ShloMosaic.PureOps.Ideal.Laws
import Idealize.ShloMosaic.Lib.ValueIdx

noncomputable section

namespace Cert.Nearest

open Idealize.ShloMosaic Idealize.ShloMosaic.ValueIdx

/-- The distance of two rows of three coordinates, by the expanded squared norm clamped at zero. -/
def pairDist (u v : Fin 3 → EReal) : EReal :=
  Ideal.sqrt (max ((∑ k, u k * u k) + (∑ k, v k * v k) - Ideal.ofBits .f32 0x40000000#32 * ∑ k, u k * v k)
    (Ideal.ofBits .f32 0x00000000#32))

/-- The least distance from the row `v` to the 1024 node rows of batch `b`, from +∞. -/
def nearest (X : (⟨3, ![8, 1024, 3]⟩ : Shape).Idx → EReal) (b : Fin 8) (v : Fin 3 → EReal) : EReal :=
  (Finset.univ : Finset (Fin 1024)).fold min (Ideal.ofBits .f32 0x7F800000#32) fun a => pairDist (fun k => X (ix3 b a k)) v

/-- Every point's least distance to its batch's node rows. -/
def minDist (X : (⟨3, ![8, 1024, 3]⟩ : Shape).Idx → EReal) (Y : (⟨3, ![8, 16384, 3]⟩ : Shape).Idx → EReal) :
    (⟨2, ![8, 16384]⟩ : Shape).Idx → EReal :=
  fun j => nearest X (j 0) fun k => Y (ix3 (j 0) (j 1) k)

theorem minDist_apply (X : (⟨3, ![8, 1024, 3]⟩ : Shape).Idx → EReal) (Y : (⟨3, ![8, 16384, 3]⟩ : Shape).Idx → EReal)
    (b : Fin 8) (n : Fin 16384) : minDist X Y (ix2 b n) = nearest X b fun k => Y (ix3 b n k) := rfl

/-- The two arrays' means, added and halved. -/
def meanPair (h : (⟨2, ![8, 16384]⟩ : Shape).ReducesTo [0, 1] ⟨0, ![]⟩) (h0 : 0 < (⟨0, ![]⟩ : Shape).numel)
    (p q : FVec Ideal ⟨2, ![8, 16384]⟩ .f32) : FVec Ideal ⟨0, ![]⟩ .f32 :=
  Host.divf
    (addf
      (Host.divf (Host.reduceAdd p (constant (F := Ideal) ⟨0, ![]⟩ .f32 0x00000000#32) h h0) (constant (F := Ideal) ⟨0, ![]⟩ .f32 0x48000000#32))
      (Host.divf (Host.reduceAdd q (constant (F := Ideal) ⟨0, ![]⟩ .f32 0x00000000#32) h h0) (constant (F := Ideal) ⟨0, ![]⟩ .f32 0x48000000#32)))
    (constant (F := Ideal) ⟨0, ![]⟩ .f32 0x40000000#32)

/-- A lane minimum over ONE axis, read at a kept index: the fold of `min` from the accumulator's value over that axis's
    coordinates, the kept index with the coordinate put back in. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The host's minimum over ONE axis likewise, from the initial value's one element. -/
theorem hostReduce_minimumf_single {s t u : Shape} {a : Fin s.rank} {φ : FTy} (x : FVec Ideal s φ) (init : FVec Ideal u φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Cert.Nearest

end
-- ==== Proof.BlockValue.lean ====
/-
  One grid point's block of the kernel, read at an index.

  The body holds the whole node set `x` (8 × 1024 × 3) and one tile `y` of 256 points (8 × 256 × 3). Its stored value at
  batch `b`, lane `q` is the minimum over the 1024 node rows `a` of
      sqrt (max ((Σ_k x[b,a,k]²) + (Σ_k y[b,q,k]²) − 2 · Σ_k x[b,a,k] · y[b,q,k]) 0),
  started at +∞: the node norms are a lane sum kept as a unit column and spread along the lanes, the point norms a lane sum
  kept as a unit row and spread down the rows, the cross term the batched product of the two blocks contracted over the three
  coordinates (the narrowing to bf16 before it is the identity on extended reals), into a zero accumulator.
-/
import proofs.«105745_j2370821948146_1_alg».proof.Proof.Gen.KernelIdeal.Skeleton
import proofs.«105745_j2370821948146_1_alg».proof.Proof.NearestSpec
import Idealize.ShloMosaic.Lib.Pipeline.Value
import Idealize.ShloMosaic.Lib.ValueIdx
import Idealize.ShloMosaic.PureOps.Ideal.Laws

noncomputable section

namespace Cert.KernelIdeal.BlockValue

open Idealize.ShloMosaic Idealize.ShloMosaic.ValueIdx Cert.KernelIdeal Cert.KernelIdeal.Gen Cert.Nearest

/-- The node rows' squared norms: summed over the three coordinates, kept as a unit column, spread over the 256 lanes. -/
theorem nodeNorm_apply (x : FVec Ideal S8x1024x3 .f32) (b : Fin 8) (a : Fin 1024) (q : Fin 256) :
    broadcastTo S8x1024x256 (shapeCast S8x1024x1 (multiReduction .add [2] S8x1024 (mulf x x) 0x00000000#32
        reduces_S8x1024x3_S8x1024 (.inl rfl) rfl) shapeCasts_S8x1024_S8x1024x1) broadcasts_S8x1024x1_S8x1024x256 (ix3 b a q)
      = ∑ k : Fin 3, x (ix3 b a k) * x (ix3 b a k) := by
  refine (broadcastTo_apply _ _ (ix3 b a q) (ix3 b a (0 : Fin 1)) ?_).trans ?_
  · intro c
    match c with
    | ⟨0, _⟩ => rfl
    | ⟨1, _⟩ => rfl
    | ⟨2, _⟩ => rfl
  refine (shapeCast_apply _ _ (ix3 b a (0 : Fin 1)) (ix2 b a) ?_).trans ?_
  · rw [Shape.rowMajor_val_two, Shape.rowMajor_val_three]
    show b.val * 1024 + a.val = (b.val * 1024 + a.val) * 1 + 0
    omega
  refine (Ideal.multiReduction_add_single _ _ _ _ _ (ix2 b a)).trans ?_
  refine Finset.sum_congr rfl fun k _ => ?_
  have e : reduces_S8x1024x3_S8x1024.lift (ix2 b a) k = ix3 b a k := funext fun c => Fin.ext (by
    match c with
    | ⟨0, _⟩ => rfl
    | ⟨1, _⟩ => rfl
    | ⟨2, _⟩ => rfl)
  rw [e]
  rfl

/-- The tile's squared norms: summed over the three coordinates, kept as a unit row, spread down the 1024 rows. -/
theorem pointNorm_apply (y : FVec Ideal S8x256x3 .f32) (b : Fin 8) (a : Fin 1024) (q : Fin 256) :
    broadcastTo S8x1024x256 (shapeCast S8x1x256 (multiReduction .add [2] S8x256 (mulf y y) 0x00000000#32
        reduces_S8x256x3_S8x256 (.inl rfl) rfl) shapeCasts_S8x256_S8x1x256) broadcasts_S8x1x256_S8x1024x256 (ix3 b a q)
      = ∑ k : Fin 3, y (ix3 b q k) * y (ix3 b q k) := by
  refine (broadcastTo_apply _ _ (ix3 b a q) (ix3 b (0 : Fin 1) q) ?_).trans ?_
  · intro c
    match c with
    | ⟨0, _⟩ => rfl
    | ⟨1, _⟩ => rfl
    | ⟨2, _⟩ => rfl
  refine (shapeCast_apply _ _ (ix3 b (0 : Fin 1) q) (ix2 b q) ?_).trans ?_
  · rw [Shape.rowMajor_val_two, Shape.rowMajor_val_three]
    show b.val * 256 + q.val = (b.val * 1 + 0) * 256 + q.val
    omega
  refine (Ideal.multiReduction_add_single _ _ _ _ _ (ix2 b q)).trans ?_
  refine Finset.sum_congr rfl fun k _ => ?_
  have e : reduces_S8x256x3_S8x256.lift (ix2 b q) k = ix3 b q k := funext fun c => Fin.ext (by
    match c with
    | ⟨0, _⟩ => rfl
    | ⟨1, _⟩ => rfl
    | ⟨2, _⟩ => rfl)
  rw [e]
  rfl

/-! ## The cross term: the batched product of the two blocks, contracted over the three coordinates -/

theorem lhs_cross_0 (i : S8x1024x256.Idx) (q : dot_S8x1024x3_S8x256x3_S8x1024x256_2_2_1_1_0_0.contr.Idx) :
    (dot_S8x1024x3_S8x256x3_S8x1024x256_2_2_1_1_0_0.lhsIdx i q 0).val = (i 0).val := by
  unfold DotDims.lhsIdx
  rw [dif_pos (show (0 : Fin S8x1024x3.rank) ∈ dot_S8x1024x3_S8x256x3_S8x1024x256_2_2_1_1_0_0.lhsBatch by decide)]
  rfl
theorem lhs_cross_1 (i : S8x1024x256.Idx) (q : dot_S8x1024x3_S8x256x3_S8x1024x256_2_2_1_1_0_0.contr.Idx) :
    (dot_S8x1024x3_S8x256x3_S8x1024x256_2_2_1_1_0_0.lhsIdx i q 1).val = (i 1).val := by
  unfold DotDims.lhsIdx
  rw [dif_neg (show ¬(1 : Fin S8x1024x3.rank) ∈ dot_S8x1024x3_S8x256x3_S8x1024x256_2_2_1_1_0_0.lhsBatch by decide), dif_pos (show (1 : Fin S8x1024x3.rank) ∈ dot_S8x1024x3_S8x256x3_S8x1024x256_2_2_1_1_0_0.lhsNonContracting by decide)]
  rfl
theorem lhs_cross_2 (i : S8x1024x256.Idx) (q : dot_S8x1024x3_S8x256x3_S8x1024x256_2_2_1_1_0_0.contr.Idx) :
    (dot_S8x1024x3_S8x256x3_S8x1024x256_2_2_1_1_0_0.lhsIdx i q 2).val = (q ⟨0, by decide⟩).val :=
  dot_S8x1024x3_S8x256x3_S8x1024x256_2_2_1_1_0_0.lhsIdx_val_of_single rfl i q
theorem rhs_cross_0 (i : S8x1024x256.Idx) (q : dot_S8x1024x3_S8x256x3_S8x1024x256_2_2_1_1_0_0.contr.Idx) :
    (dot_S8x1024x3_S8x256x3_S8x1024x256_2_2_1_1_0_0.rhsIdx i q 0).val = (i 0).val := by
  unfold DotDims.rhsIdx
  rw [dif_pos (show (0 : Fin S8x256x3.rank) ∈ dot_S8x1024x3_S8x256x3_S8x1024x256_2_2_1_1_0_0.rhsBatch by decide)]
  rfl
theorem rhs_cross_1 (i : S8x1024x256.Idx) (q : dot_S8x1024x3_S8x256x3_S8x1024x256_2_2_1_1_0_0.contr.Idx) :
    (dot_S8x1024x3_S8x256x3_S8x1024x256_2_2_1_1_0_0.rhsIdx i q 1).val = (i 2).val := by
  unfold DotDims.rhsIdx
  rw [dif_neg (show ¬(1 : Fin S8x256x3.rank) ∈ dot_S8x1024x3_S8x256x3_S8x1024x256_2_2_1_1_0_0.rhsBatch by decide), dif_pos (show (1 : Fin S8x256x3.rank) ∈ dot_S8x1024x3_S8x256x3_S8x1024x256_2_2_1_1_0_0.rhsNonContracting by decide)]
  rfl
theorem rhs_cross_2 (i : S8x1024x256.Idx) (q : dot_S8x1024x3_S8x256x3_S8x1024x256_2_2_1_1_0_0.contr.Idx) :
    (dot_S8x1024x3_S8x256x3_S8x1024x256_2_2_1_1_0_0.rhsIdx i q 2).val = (q ⟨0, by decide⟩).val :=
  dot_S8x1024x3_S8x256x3_S8x1024x256_2_2_1_1_0_0.rhsIdx_val_of_single rfl i q

/-- Entry (b, a, q) of the product into the zero accumulator is the inner product of node row (b, a) and tile row (b, q). -/
theorem cross_apply (x : FVec Ideal S8x1024x3 .f32) (y : FVec Ideal S8x256x3 .f32) (b : Fin 8) (a : Fin 1024) (q : Fin 256) :
    matmul dot_S8x1024x3_S8x256x3_S8x1024x256_2_2_1_1_0_0 none (truncf .bf16 x bitsLt_bf16_f32) (truncf .bf16 y bitsLt_bf16_f32)
        (constant S8x1024x256 .f32 0x00000000#32) (ix3 b a q)
      = ∑ k : Fin 3, x (ix3 b a k) * y (ix3 b q k) := by
  simp only [matmul]
  rw [Ideal.matmul_constant_zero_apply, ← Equiv.sum_comp (contrEquiv1 dot_S8x1024x3_S8x256x3_S8x1024x256_2_2_1_1_0_0 3 rfl rfl).symm]
  refine Finset.sum_congr rfl fun k _ => ?_
  have hk := contrEquiv1_symm_val dot_S8x1024x3_S8x256x3_S8x1024x256_2_2_1_1_0_0 3 rfl rfl k
  have el : dot_S8x1024x3_S8x256x3_S8x1024x256_2_2_1_1_0_0.lhsIdx (ix3 b a q) ((contrEquiv1 dot_S8x1024x3_S8x256x3_S8x1024x256_2_2_1_1_0_0 3 rfl rfl).symm k) = ix3 b a k := funext fun c => Fin.ext (by
    match c with
    | ⟨0, _⟩ => exact lhs_cross_0 _ _
    | ⟨1, _⟩ => exact lhs_cross_1 _ _
    | ⟨2, _⟩ => exact (lhs_cross_2 _ _).trans hk)
  have er : dot_S8x1024x3_S8x256x3_S8x1024x256_2_2_1_1_0_0.rhsIdx (ix3 b a q) ((contrEquiv1 dot_S8x1024x3_S8x256x3_S8x1024x256_2_2_1_1_0_0 3 rfl rfl).symm k) = ix3 b q k := funext fun c => Fin.ext (by
    match c with
    | ⟨0, _⟩ => exact rhs_cross_0 _ _
    | ⟨1, _⟩ => exact rhs_cross_1 _ _
    | ⟨2, _⟩ => exact (rhs_cross_2 _ _).trans hk)
  rw [el, er]
  rfl

/-! ## The stored value -/

/-- Node row `a` put back into the kept index (b, q) of the minimum over the rows. -/
theorem lift_rows (b : Fin 8) (q : Fin 256) (a : Fin 1024) :
    reduces_S8x1024x256_S8x256.lift (ix2 b q) a = ix3 b a q := funext fun c => Fin.ext (by
  match c with
  | ⟨0, _⟩ => rfl
  | ⟨1, _⟩ => rfl
  | ⟨2, _⟩ => rfl)

/-- The block's stored value at batch `b`, lane `q`: the least distance from tile row (b, q) to the node rows of batch `b`. -/
theorem pay_apply (x : FVec Ideal S8x1024x3 .f32) (y : FVec Ideal S8x256x3 .f32) (b : Fin 8) (q : Fin 256) :
    k0_pay1 (F := Ideal) x y (ix2 b q) = nearest x b fun k => y (ix3 b q k) := by
  unfold k0_pay1
  refine (multiReduction_minimumf_single _ _ _ _ _ (ix2 b q)).trans ?_
  unfold nearest
  show (Finset.univ : Finset (Fin 1024)).fold min (Ideal.ofBits .f32 0x7F800000#32) _ = _
  refine Finset.fold_congr fun a _ => ?_
  have hA := nodeNorm_apply x b a q
  have hB := pointNorm_apply y b a q
  have hC := cross_apply x y b a q
  have hl := lift_rows b q a
  unfold pairDist
  rw [← hA, ← hB, ← hC, ← hl]
  rfl

/-- The same against a whole point set `Y` of which the tile's row (b, q) is row (b, n). -/
theorem pay_eq_minDist (x : FVec Ideal S8x1024x3 .f32) (y : FVec Ideal S8x256x3 .f32) (Y : FVec Ideal S8x16384x3 .f32)
    (b : Fin 8) (q : Fin 256) (n : Fin 16384) (hy : ∀ k : Fin 3, y (ix3 b q k) = Y (ix3 b n k)) :
    k0_pay1 (F := Ideal) x y (ix2 b q) = minDist x Y (ix2 b n) := by
  rw [pay_apply, minDist_apply]
  exact congrArg (nearest x b) (funext hy)

/-- The second call's stored value is the same function of its blocks. -/
theorem pay1_eq : @k1_pay1 Ideal _ = @k0_pay1 Ideal _ := rfl

end Cert.KernelIdeal.BlockValue

end
-- ==== Proof.Region0Value.lean ====
/-
  The first call's output array after its 64 grid points, as one function of the arrays the call finds on entry.

  Point `t` holds the whole node set (its block index is 0 on every axis) and tile `t` of the point set (rows 256·t …
  256·t + 255 of every batch), and writes back tile `t` of the output (columns 256·t … 256·t + 255 of every batch). So the
  value it stores at (b, q) is the least distance from point row (b, 256·t + q) to the node rows of batch `b`: entry
  (b, 256·t + q) of `minDist`. The 64 tiles cover the 16384 columns (column n lies in tile n / 256), so the array ends as
  `minDist` of the node set and the point set.
-/
import proofs.«105745_j2370821948146_1_alg».proof.Proof.Gen.KernelIdeal.Frame
import proofs.«105745_j2370821948146_1_alg».proof.Proof.BlockValue
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Nearest Cert.KernelIdeal.BlockValue
open Idealize.ShloMosaic.Pipeline (Dat Cfg Window)

variable (V : (c : Dev nD) → (b : Ref sig .tc) → Buf (Elt Ideal) ((c : Thread nD τ).loc b))

/-- The node set and the point set as the call finds them, and a point's two input blocks, at their literal types. -/
abbrev nodes (c : Dev nD) : FVec Ideal S8x1024x3 .f32 := V c main_arg0
abbrev points (c : Dev nD) : FVec Ideal S8x16384x3 .f32 := V c main_arg1
abbrev nodeBlk (c : Dev nD) (t : Fin cfg0.N) : FVec Ideal S8x1024x3 .f32 := iblk0 V c 0 t
abbrev tileBlk (c : Dev nD) (t : Fin cfg0.N) : FVec Ideal S8x256x3 .f32 := iblk0 V c 1 t

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: the node block stays at the origin; the tile and the output block move together along
    the point axis, within the 64 tiles. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = win0_2.index t (1 : Fin 2) ∧ win0_1.index t (2 : Fin 3) = 0
    ∧ win0_2.index t (0 : Fin 2) = 0 ∧ win0_2.index t (1 : Fin 2) ≤ 63 :=
  (by decide +kernel : ∀ t : Fin grid0.N, _)

/-- Every one of the 64 output tiles is some point's. -/
theorem idx_onto : ∀ q1 : Fin 64, ∃ t : Fin cfg0.N, win0_2.index t = ![0, q1.val] :=
  (by decide +kernel : ∀ q1 : Fin 64, ∃ t : Fin grid0.N, win0_2.index t = ![0, q1.val])

/-- A point's node block is the whole node set. -/
theorem nodeBlk_eq (c : Dev nD) (t : Fin cfg0.N) : nodeBlk V c t = nodes V c := by
  funext y
  show V c main_arg0 (((cfg0.win 0).blk t).view.emb y) = V c main_arg0 y
  obtain ⟨e0, e1, e2, -⟩ := idx_facts t
  refine congrArg (V c main_arg0) (funext fun a => Fin.ext ?_)
  match a with
  | ⟨0, _⟩ => show win0_0.index t (0 : Fin 3) * 8 + 1 * (y 0).val = (y 0).val; omega
  | ⟨1, _⟩ => show win0_0.index t (1 : Fin 3) * 1024 + 1 * (y 1).val = (y 1).val; omega
  | ⟨2, _⟩ => show win0_0.index t (2 : Fin 3) * 3 + 1 * (y 2).val = (y 2).val; omega

/-- Row (b, q) of a point's tile is row (b, 256·t + q) of the point set. -/
theorem tileBlk_apply (c : Dev nD) (t : Fin cfg0.N) (b : Fin 8) (q : Fin 256) (n : Fin 16384)
    (hn : n.val = win0_2.index t (1 : Fin 2) * 256 + q.val) (k : Fin 3) :
    tileBlk V c t (ix3 b q k) = points V c (ix3 b n k) := by
  show V c main_arg1 (((cfg0.win 1).blk t).view.emb (ix3 b q k)) = V c main_arg1 (ix3 b n k)
  obtain ⟨-, -, -, e3, e4, e5, -⟩ := idx_facts t
  refine congrArg (V c main_arg1) (funext fun a => Fin.ext ?_)
  match a with
  | ⟨0, _⟩ => show win0_1.index t (0 : Fin 3) * 8 + 1 * b.val = b.val; omega
  | ⟨1, _⟩ => show win0_1.index t (1 : Fin 3) * 256 + 1 * q.val = n.val; omega
  | ⟨2, _⟩ => show win0_1.index t (2 : Fin 3) * 3 + 1 * k.val = k.val; omega

/-- WHAT POINT `t` WRITES BACK is tile `t` of `minDist` of the node set and the point set. -/
theorem flushed_eq (c : Dev nD) (t : Fin cfg0.N) :
    (dat0 V c).flushed 2 t = ((cfg0.win 2).blk t).view.read (Elt Ideal) (minDist (nodes V c) (points V c)) := by
  show (cfg0.win 2).cut (grid0.coords t) ((dat0 V c).after 2 t) = _
  rw [after0_2]
  unfold out0_2
  rw [View.canon_unit_zero zero2]
  simp only [View.ld_unit_zero (S := S8x1024x3) zero3, View.ld_unit_zero (S := S8x256x3) zero3]
  obtain ⟨-, -, -, -, -, -, e6, e7⟩ := idx_facts t
  funext j
  obtain ⟨b, q, rfl⟩ : ∃ (b : Fin 8) (q : Fin 256), j = ix2 b q := ⟨j 0, j 1, eq_ix2 j⟩
  have hq : q.val < 256 := q.isLt
  have hb : win0_2.index t (1 : Fin 2) * 256 + q.val < 16384 := by omega
  have hemb : ((cfg0.win 2).blk t).view.emb (ix2 b q) = ix2 b (⟨win0_2.index t (1 : Fin 2) * 256 + q.val, hb⟩ : Fin 16384) :=
    funext fun a => Fin.ext (by
      match a with
      | ⟨0, _⟩ => show win0_2.index t (0 : Fin 2) * 8 + 1 * b.val = b.val; omega
      | ⟨1, _⟩ => show win0_2.index t (1 : Fin 2) * 256 + 1 * q.val = win0_2.index t (1 : Fin 2) * 256 + q.val; omega)
  show k0_pay1 (F := Ideal) (nodeBlk V c t) (tileBlk V c t) (ix2 b q) = minDist (nodes V c) (points V c) (((cfg0.win 2).blk t).view.emb (ix2 b q))
  rw [hemb, nodeBlk_eq]
  exact pay_eq_minDist (nodes V c) (tileBlk V c t) (points V c) b q _ (fun k => tileBlk_apply V c t b q _ rfl k)

/-- An index of the output array is in point `t`'s tile iff each coordinate is in the tile's range on its axis. -/
theorem mem_blk (t : Fin cfg0.N) (i : S8x16384.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v0).slice (win0_2.rect t)).set ↔ _
  rw [View.set_slice_whole, Rect.mem_set_unit]
  exact Iff.rfl

/-- The 64 tiles cover the array: column n is in tile n / 256. -/
theorem cover (i : S8x16384.Idx) : ∃ t : Fin cfg0.N, (cfg0.win 2).flush t = true ∧ i ∈ ((cfg0.win 2).blk t).view.set := by
  have hi0 : (i 0).val < 8 := (i 0).isLt
  have hi1 : (i 1).val < 16384 := (i 1).isLt
  obtain ⟨t, ht⟩ := idx_onto ⟨(i 1).val / 256, by omega⟩
  have q0 : win0_2.index t (0 : Fin 2) = 0 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 256 ≤ (i 1).val ∧ (i 1).val < win0_2.index t (1 : Fin 2) * 256 + 256; omega

/-- THE OUTPUT ARRAY after the call's write-backs: every point's least distance to its batch's node rows. -/
theorem final (c : Dev nD) : (dat0 V c).arrAt 2 cfg0.N = minDist (nodes V c) (points V c) :=
  (dat0 V c).arrAt_eq_of_cover 2 _ (fun t _ => flushed_eq V c t) cover

end Cert.KernelIdeal.Region0

end
-- ==== Proof.KernelValue.lean ====
/-
  The kernel program's result as the specification's function of the four argument arrays.

  After the two calls the first output array holds `minDist` of the first node set and point set and the second that of the
  second pair: the second call does not touch the first's output, and neither call nor any host operation writes an
  argument, so each call finds its arguments as launched. The host operations after the calls sum each array over all its
  entries from zero, divide by 131072, add the two quotients and halve: `meanPair` of the two arrays.
-/
import proofs.«105745_j2370821948146_1_alg».proof.Proof.Gen.KernelIdeal.Frame
import proofs.«105745_j2370821948146_1_alg».proof.Proof.Region0Value
import proofs.«105745_j2370821948146_1_alg».proof.Proof.Region1Value
import Idealize.ShloMosaic.Lib.StableHlo.Run

set_option maxRecDepth 16384

noncomputable section

namespace Cert.KernelIdeal.KernelValue

open Idealize.ShloMosaic Idealize.ShloMosaic.TcCoe Idealize.ShloMosaic.StableHlo Idealize.SL.Sem
open Cert.KernelIdeal Cert.KernelIdeal.Gen Cert.Nearest

variable (m : (ℓ : Loc nD τ sig) → Buf (Elt Ideal) ℓ) (ρ : Dev nD → PrngReg)

/-- The first call's output after both calls. -/
theorem out0_eq (c : Dev nD) :
    W2 m ρ c (Proc.devRef .tc main_v0)
      = minDist (m ((c.tc : Thread nD τ).loc main_arg0)) (m ((c.tc : Thread nD τ).loc main_arg1)) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = minDist (m ((c.tc : Thread nD τ).loc main_arg0)) (m ((c.tc : Thread nD τ).loc main_arg1)) := Region0.final (V0 m ρ) c

/-- The second call's output after both calls: it finds its arguments as launched, the first call having written neither. -/
theorem out1_eq (c : Dev nD) :
    W2 m ρ c (Proc.devRef .tc main_v1)
      = minDist (m ((c.tc : Thread nD τ).loc main_arg2)) (m ((c.tc : Thread nD τ).loc main_arg3)) :=
  calc W2 m ρ c (Proc.devRef .tc main_v1)
    _ = (dat1 (V1 m ρ) c).arrAt 2 cfg1.N := W2_arr m ρ c 2
    _ = minDist (V1 m ρ c main_arg2) (V1 m ρ c main_arg3) := Region1.final (V1 m ρ) c
    _ = minDist (m ((c.tc : Thread nD τ).loc main_arg2)) (m ((c.tc : Thread nD τ).loc main_arg3)) :=
        congrArg₂ minDist (W1_of_ne m ρ c main_arg2 (by decide)) (W1_of_ne m ρ c main_arg3 (by decide))

/-- THE RESULT at the last boundary: the two arrays' means, added and halved. -/
theorem result_eq (c : Dev nD) :
    W3 m ρ c (Proc.devRef .tc main_v7)
      = meanPair reducesTo_S8x16384_S_d0_1 h_S_
          (minDist (m ((c.tc : Thread nD τ).loc main_arg0)) (m ((c.tc : Thread nD τ).loc main_arg1)))
          (minDist (m ((c.tc : Thread nD τ).loc main_arg2)) (m ((c.tc : Thread nD τ).loc main_arg3))) := by
  rw [← out0_eq m ρ c, ← out1_eq m ρ c]
  show StableHlo.after hostOps2 (W2 m ρ c) (Proc.devRef .tc main_v7) = _
  generalize W2 m ρ c = w
  after_results
  rfl

end Cert.KernelIdeal.KernelValue

end
-- ==== Proof.RefValue.lean ====
/-
  The reference's result as the specification's function of the four argument arrays.

  Its distance array at (b, a, n) is `pairDist` of node row (b, a) and point row (b, n): the two squared norms are host
  sums over the three coordinates (from an initial zero), kept by broadcasts along the missing axis, the cross term the
  batched contraction over the three coordinates. Its minimum over the 1024 node rows, from +∞, is `nearest`; so each of its
  two arrays of minima is `minDist` of its node set and point set, and the closing scalar is `meanPair` of the two.
-/
import proofs.«105745_j2370821948146_1_alg».proof.Proof.Gen.ReferenceIdeal.Read
import proofs.«105745_j2370821948146_1_alg».proof.Proof.NearestSpec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Nearest

/-! ## Where each stage reads its operand, at the index (b, a, n) -/

theorem nodeNorm_idx (b : Fin 8) (a : Fin 1024) (n : Fin 16384) (k : Fin 3) :
    idx_main_v1 (idx_main_v2 (idx_main_v7 (ix3 b a n))) k = ix3 b a k := funext fun c => Fin.ext (by
  match c with
  | ⟨0, _⟩ => rfl
  | ⟨1, _⟩ => rfl
  | ⟨2, _⟩ => rfl)

theorem pointNorm_idx (b : Fin 8) (a : Fin 1024) (n : Fin 16384) (k : Fin 3) :
    idx_main_v4 (idx_main_v5 (idx_main_v8 (ix3 b a n))) k = ix3 b n k := funext fun c => Fin.ext (by
  match c with
  | ⟨0, _⟩ => rfl
  | ⟨1, _⟩ => rfl
  | ⟨2, _⟩ => rfl)

theorem crossL_idx (b : Fin 8) (a : Fin 1024) (n : Fin 16384) (k : Fin 3) :
    lidx_main_v6 (ix3 b a n) k = ix3 b a k := funext fun c => Fin.ext (by
  match c with
  | ⟨0, _⟩ => rfl
  | ⟨1, _⟩ => rfl
  | ⟨2, _⟩ => rfl)

theorem crossR_idx (b : Fin 8) (a : Fin 1024) (n : Fin 16384) (k : Fin 3) :
    ridx_main_v6 (ix3 b a n) k = ix3 b n k := funext fun c => Fin.ext (by
  match c with
  | ⟨0, _⟩ => rfl
  | ⟨1, _⟩ => rfl
  | ⟨2, _⟩ => rfl)

/-- One entry of the distance array: the distance of node row (b, a) and point row (b, n). -/
theorem dist_apply (x : (⟨S8x1024x3, .f32⟩ : BufTy).Contents (Elt Ideal)) (y : (⟨S8x16384x3, .f32⟩ : BufTy).Contents (Elt Ideal))
    (b : Fin 8) (a : Fin 1024) (n : Fin 16384) :
    val_main_v15 (F := Ideal) x y (ix3 b a n) = pairDist (fun k => x (ix3 b a k)) (fun k => y (ix3 b n k)) := by
  rw [val_main_v15_apply, val_main_v14_apply, val_main_v13_apply, val_main_cst_2_apply, val_main_v12_apply,
    val_main_v11_apply, val_main_v10_apply, val_main_cst_1_apply, val_main_v6_apply, val_main_v9_apply,
    val_main_v8_apply, val_main_v5_apply, val_main_v4_apply, val_main_v7_apply, val_main_v2_apply, val_main_v1_apply]
  unfold pairDist
  simp only [val_main_v0_apply, val_main_v3_apply, val_main_cst_apply, val_main_cst_0_apply, nodeNorm_idx, pointNorm_idx,
    crossL_idx, crossR_idx, Ideal.hostUnary_sqrt_def, Ideal.maximumf_def, Ideal.subf_def, Ideal.addf_def, Ideal.mulf_def,
    Ideal.ofBits_def, Ideal.ofBits_zero_f32, zero_add]

/-- Node row `a` put back into the kept index (b, n) of the minimum over the rows. -/
theorem lift_rows (h : S8x1024x16384.Reduces [1] S8x16384) (b : Fin 8) (n : Fin 16384) (a : Fin 1024) :
    h.lift (ix2 b n) a = ix3 b a n := funext fun c => Fin.ext (by
  match c with
  | ⟨0, _⟩ => rfl
  | ⟨1, _⟩ => rfl
  | ⟨2, _⟩ => rfl)

/-- The array of minima at (b, n): the least distance from point row (b, n) to the node rows of batch `b`. -/
theorem nearest_apply (x : (⟨S8x1024x3, .f32⟩ : BufTy).Contents (Elt Ideal)) (y : (⟨S8x16384x3, .f32⟩ : BufTy).Contents (Elt Ideal))
    (b : Fin 8) (n : Fin 16384) :
    val_main_v16 (F := Ideal) x y (ix2 b n) = nearest x b fun k => y (ix3 b n k) := by
  have h : S8x1024x16384.Reduces [1] S8x16384 := by decide
  unfold val_main_v16
  refine (hostReduce_minimumf_single _ _ reducesTo_S8x1024x16384_S8x16384_d1 h h_S_ (ix2 b n)).trans ?_
  unfold nearest
  show (Finset.univ : Finset (Fin 1024)).fold min (Ideal.ofBits .f32 0x7F800000#32) _ = _
  refine Finset.fold_congr fun a _ => ?_
  have hd := dist_apply x y b a n
  rw [← lift_rows h b n a] at hd
  exact hd

/-- Each array of minima is `minDist` of its node set and point set. -/
theorem minima_eq (x : (⟨S8x1024x3, .f32⟩ : BufTy).Contents (Elt Ideal)) (y : (⟨S8x16384x3, .f32⟩ : BufTy).Contents (Elt Ideal)) :
    val_main_v16 (F := Ideal) x y = minDist x y := funext fun j => by
  obtain ⟨b, n, rfl⟩ : ∃ (b : Fin 8) (n : Fin 16384), j = ix2 b n := ⟨j 0, j 1, eq_ix2 j⟩
  exact nearest_apply x y b n

/-- The second array of minima is the same function of its operands as the first. -/
theorem minima2_eq (x : (⟨S8x1024x3, .f32⟩ : BufTy).Contents (Elt Ideal)) (y : (⟨S8x16384x3, .f32⟩ : BufTy).Contents (Elt Ideal)) :
    val_main_v33 (F := Ideal) x y = val_main_v16 (F := Ideal) x y := rfl

/-- THE REFERENCE'S RESULT: the two arrays' means, added and halved. -/
theorem result_eq (x0 : (⟨S8x1024x3, .f32⟩ : BufTy).Contents (Elt Ideal)) (x1 : (⟨S8x16384x3, .f32⟩ : BufTy).Contents (Elt Ideal))
    (x2 : (⟨S8x1024x3, .f32⟩ : BufTy).Contents (Elt Ideal)) (x3 : (⟨S8x16384x3, .f32⟩ : BufTy).Contents (Elt Ideal)) :
    val_main_v39 (F := Ideal) x0 x1 x2 x3
      = meanPair reducesTo_S8x16384_S_d0_1 h_S_ (minDist x0 x1) (minDist x2 x3) := by
  rw [← minima_eq x0 x1, ← minima_eq x2 x3, ← minima2_eq x2 x3]
  rfl

end Cert.ReferenceIdeal.RefValue

end
-- ==== Proof.lean ====
/-
  The kernel and its reference compute one number from two pairs (node set, point set): for each pair the array, over
  batch and point, of the point's least distance to the batch's 1024 node rows — the distance taken as
  sqrt (max (|u|² + |v|² − 2 u·v, 0)) and the minimum started at +∞ — and then the two arrays' means, added and halved.

  The kernel makes each array in 64 grid points of one call, a point holding the whole node set and one tile of 256
  points (Proof/BlockValue.lean reads a point's stored block at an index, Proof/Region0Value.lean and
  Proof/Region1Value.lean put the 64 tiles together, Proof/KernelValue.lean carries the two arrays through the closing host
  operations); the reference makes it in one piece on the host (Proof/RefValue.lean). Both are the same function of the
  argument arrays (Proof/NearestSpec.lean), term by term and in the same order of operations, so no law of the extended
  reals beyond reading sums, minima and products at an index is needed and the precondition is never opened. The ideal
  pass rewrote nothing, so `preserves` has no conjunct.
-/
import proofs.«105745_j2370821948146_1_alg».proof.Defs
import proofs.«105745_j2370821948146_1_alg».proof.Proof.Gen.Kernel
import proofs.«105745_j2370821948146_1_alg».proof.Proof.Gen.Kernel.Skeleton
import proofs.«105745_j2370821948146_1_alg».proof.Proof.Gen.Kernel.Launch
import proofs.«105745_j2370821948146_1_alg».proof.Proof.Gen.Kernel.Points
import proofs.«105745_j2370821948146_1_alg».proof.Proof.Gen.Kernel.Frame
import proofs.«105745_j2370821948146_1_alg».proof.Proof.Gen.KernelIdeal
import proofs.«105745_j2370821948146_1_alg».proof.Proof.Gen.KernelIdeal.Skeleton
import proofs.«105745_j2370821948146_1_alg».proof.Proof.Gen.KernelIdeal.Launch
import proofs.«105745_j2370821948146_1_alg».proof.Proof.Gen.KernelIdeal.Points
import proofs.«105745_j2370821948146_1_alg».proof.Proof.Gen.KernelIdeal.Frame
import proofs.«105745_j2370821948146_1_alg».proof.Proof.Gen.ReferenceIdeal
import proofs.«105745_j2370821948146_1_alg».proof.Proof.Gen.ReferenceIdeal.Run
import proofs.«105745_j2370821948146_1_alg».proof.Proof.Gen.ReferenceIdeal.Read
import proofs.«105745_j2370821948146_1_alg».proof.Proof.Gen.Pre_finite_inputs
import proofs.«105745_j2370821948146_1_alg».proof.Proof.KernelRun
import proofs.«105745_j2370821948146_1_alg».proof.Proof.KernelValue
import proofs.«105745_j2370821948146_1_alg».proof.Proof.RefValue
import Idealize.ShloMosaic.Adequacy
import Idealize.ShloMosaic.Init

noncomputable section

namespace Cert.Proof

open Idealize.ShloMosaic Idealize.SL.Sem Cert.Nearest

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at `meanPair` of the two `minDist` arrays of arguments that agree. -/
theorem algebraic : Cert.algebraic_KernelIdeal_ReferenceIdeal := by
  intro m ρ m' ρ' _ hagree
  refine ⟨fun c => meanPair Cert.KernelIdeal.Gen.reducesTo_S8x16384_S_d0_1 Cert.KernelIdeal.Gen.h_S_
      (minDist (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (minDist (m ((c.tc : Thread Cert.KernelIdeal.nD Cert.KernelIdeal.τ).loc Cert.KernelIdeal.main_arg2))
        (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelIdeal.KernelValue.result_eq m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v39_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
